-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x512 : Shape := ⟨3, ![256, 196, 512]⟩
abbrev S256x77x512 : Shape := ⟨3, ![256, 77, 512]⟩
abbrev S_ : Shape := ⟨0, ![]⟩

class Facts : Prop where
  bcast_S_S256x196x512 : S_.BroadcastsInDim S256x196x512 (![] : Fin 0 → Fin S256x196x512.rank)
  reducesTo_S256x196x512_S_d0_1_2 : S256x196x512.ReducesTo [0, 1, 2] S_
  h_S_ : 0 < S_.numel
  bcast_S_S256x77x512 : S_.BroadcastsInDim S256x77x512 (![] : Fin 0 → Fin S256x77x512.rank)
  reducesTo_S256x77x512_S_d0_1_2 : S256x77x512.ReducesTo [0, 1, 2] S_

variable [Facts]

def fn {F : FTy → Type} [FloatOps F] (main_arg0 : FVec F S256x196x512 .f32) (main_arg1 : FVec F S256x77x512 .f32) : IVec S_ 1 :=
  let main_v0 : FVec F S256x196x512 .f32 := Host.absf main_arg0
  let main_cst : FVec F S_ .f32 := constant S_ .f32 0x7F800000#32
  let main_v1 : FVec F S256x196x512 .f32 := broadcastInDim S256x196x512 ![] bcast_S_S256x196x512 main_cst
  let main_v2 : IVec S256x196x512 1 := cmpf .olt main_v0 main_v1
  let main_c : IVec S_ 1 := constantI S_ 1 1#1
  let main_v3 : IVec S_ 1 := (fun x v => Host.reduce IntOp.andi x v reducesTo_S256x196x512_S_d0_1_2 h_S_) main_v2 main_c
  let main_v4 : FVec F S256x77x512 .f32 := Host.absf main_arg1
  let main_cst_0 : FVec F S_ .f32 := constant S_ .f32 0x7F800000#32
  let main_v5 : FVec F S256x77x512 .f32 := broadcastInDim S256x77x512 ![] bcast_S_S256x77x512 main_cst_0
  let main_v6 : IVec S256x77x512 1 := cmpf .olt main_v4 main_v5
  let main_c_1 : IVec S_ 1 := constantI S_ 1 1#1
  let main_v7 : IVec S_ 1 := (fun x v => Host.reduce IntOp.andi x v reducesTo_S256x77x512_S_d0_1_2 h_S_) main_v6 main_c_1
  let main_v8 : IVec S_ 1 := andi main_v3 main_v7
  main_v8
-- ==== Kernel.lean ====
abbrev S256x196x512 : Shape := ⟨3, ![256, 196, 512]⟩
abbrev S256x77x512 : Shape := ⟨3, ![256, 77, 512]⟩
abbrev S256x512 : Shape := ⟨2, ![256, 512]⟩
abbrev S16x196x512 : Shape := ⟨3, ![16, 196, 512]⟩
abbrev S16x512 : Shape := ⟨2, ![16, 512]⟩
abbrev S16x196 : Shape := ⟨2, ![16, 196]⟩
abbrev S16x196x1 : Shape := ⟨3, ![16, 196, 1]⟩
abbrev S16x77x512 : Shape := ⟨3, ![16, 77, 512]⟩
abbrev S16x77 : Shape := ⟨2, ![16, 77]⟩
abbrev S16x77x1 : Shape := ⟨3, ![16, 77, 1]⟩
abbrev S256x256 : Shape := ⟨2, ![256, 256]⟩
abbrev S_ : Shape := ⟨0, ![]⟩
abbrev S256 : Shape := ⟨1, ![256]⟩
abbrev S256x1 : Shape := ⟨2, ![256, 1]⟩
abbrev S256x2 : Shape := ⟨2, ![256, 2]⟩

abbrev nBuf : Space → Nat
  | .hbm => 89
  | .vmem => 8
  | .smem => 0
  | _ => 0

abbrev bufTy : (tb : Table) → Fin (tcTables nBuf tb) → BufTy
  | .hbm, ⟨0, _⟩ => ⟨S256x196x512, .f32⟩
  | .hbm, ⟨1, _⟩ => ⟨S256x77x512, .f32⟩
  | .hbm, ⟨2, _⟩ => ⟨S256x512, .f32⟩
  | .hbm, ⟨3, _⟩ => ⟨S256x512, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256, .i32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S256x1, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1, .f32⟩
  | .hbm, ⟨38, _⟩ => ⟨S256x256, .f32⟩
  | .hbm, ⟨39, _⟩ => ⟨S256x256, .f32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S256x1, .i32⟩
  | .hbm, ⟨56, _⟩ => ⟨S256x2, .i32⟩
  | .hbm, ⟨57, _⟩ => ⟨S256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S256x1, .i32⟩
  | .hbm, ⟨78, _⟩ => ⟨S256x1, .i32⟩
  | .hbm, ⟨79, _⟩ => ⟨S256x2, .i32⟩
  | .hbm, ⟨80, _⟩ => ⟨S256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S16x196x512, .f32⟩
  | .local _ .vmem, ⟨1, _⟩ => ⟨S16x196x512, .f32⟩
  | .local _ .vmem, ⟨2, _⟩ => ⟨S16x512, .f32⟩
  | .local _ .vmem, ⟨3, _⟩ => ⟨S16x512, .f32⟩
  | .local _ .vmem, ⟨4, _⟩ => ⟨S16x77x512, .f32⟩
  | .local _ .vmem, ⟨5, _⟩ => ⟨S16x77x512, .f32⟩
  | .local _ .vmem, ⟨6, _⟩ => ⟨S16x512, .f32⟩
  | .local _ .vmem, ⟨7, _⟩ => ⟨S16x512, .f32⟩
  | _, _ => ⟨S256x196x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v6 : Ref sig .tc := ⟨.hbm, 23, rfl⟩
abbrev main_v7 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v8 : Ref sig .tc := ⟨.hbm, 39, rfl⟩
abbrev main_c : Ref sig .tc := ⟨.hbm, 40, rfl⟩
abbrev main_v9 : Ref sig .tc := ⟨.hbm, 41, rfl⟩
abbrev main_v10 : Ref sig .tc := ⟨.hbm, 42, rfl⟩
abbrev main_c_0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_1 : Ref sig .tc := ⟨.hbm, 47, rfl⟩
abbrev main_v14 : Ref sig .tc := ⟨.hbm, 48, rfl⟩
abbrev main_v15 : Ref sig .tc := ⟨.hbm, 49, rfl⟩
abbrev main_c_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_cst_4 : Ref sig .tc := ⟨.hbm, 60, rfl⟩
abbrev main_v24 : Ref sig .tc := ⟨.hbm, 61, rfl⟩
abbrev main_v25 : Ref sig .tc := ⟨.hbm, 62, rfl⟩
abbrev main_c_5 : Ref sig .tc := ⟨.hbm, 63, rfl⟩
abbrev main_v26 : Ref sig .tc := ⟨.hbm, 64, rfl⟩
abbrev main_v27 : Ref sig .tc := ⟨.hbm, 65, rfl⟩
abbrev main_c_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_7 : Ref sig .tc := ⟨.hbm, 70, rfl⟩
abbrev main_v31 : Ref sig .tc := ⟨.hbm, 71, rfl⟩
abbrev main_v32 : Ref sig .tc := ⟨.hbm, 72, rfl⟩
abbrev main_c_8 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_9 : Ref sig .tc := ⟨.hbm, 81, rfl⟩
abbrev main_v40 : Ref sig .tc := ⟨.hbm, 82, rfl⟩
abbrev main_cst_10 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_11 : Ref sig .tc := ⟨.hbm, 87, rfl⟩
abbrev main_v44 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x77x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S16x196x512_S16x196x512_0_0_0 : ∀ a, (![0, 0, 0] : Fin 3 → Nat) a + S16x196x512.size a ≤ S16x196x512.size a
  h_S16x196x512 : 0 < S16x196x512.numel
  reduces_S16x196x512_S16x196 : S16x196x512.Reduces [2] S16x196
  shapeCasts_S16x196_S16x196x1 : S16x196.ShapeCasts S16x196x1
  broadcasts_S16x196x1_S16x196x512 : S16x196x1.Broadcasts S16x196x512
  reduces_S16x196x512_S16x512 : S16x196x512.Reduces [1] S16x512
  inb_S16x512_S16x512_0_0 : ∀ a, (![0, 0] : Fin 2 → Nat) a + S16x512.size a ≤ S16x512.size a
  h_S16x512 : 0 < S16x512.numel
  inb_S16x77x512_S16x77x512_0_0_0 : ∀ a, (![0, 0, 0] : Fin 3 → Nat) a + S16x77x512.size a ≤ S16x77x512.size a
  h_S16x77x512 : 0 < S16x77x512.numel
  reduces_S16x77x512_S16x77 : S16x77x512.Reduces [2] S16x77
  shapeCasts_S16x77_S16x77x1 : S16x77.ShapeCasts S16x77x1
  broadcasts_S16x77x1_S16x77x512 : S16x77x1.Broadcasts S16x77x512
  reduces_S16x77x512_S16x512 : S16x77x512.Reduces [1] S16x512
  bcast_S_S256x256 : S_.BroadcastsInDim S256x256 (![] : Fin 0 → Fin S256x256.rank)
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  concatenates_S256x1_S256x1_S256x2_d1 : Shape.Concatenates [S256x1, S256x1] S256x2 1
  reducesTo_S256_S_d0 : S256.ReducesTo [0] S_
  dot_S256x512_S256x512_S256x256_1_1_0_0_n_n_wf : DotDims.WF S256x512 S256x512 S256x256 [1] [1] [0] [0] [] []
  gather_S256x256_S256x2_S256_n_01_n_n_01_1_11_wf : GatherDims.WF S256x256 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x196x512.size a ≤ S256x196x512.size a
  hwx0_0 : ∀ i : grid0.Coords, EltTy.bits .f32 = 32 ∨ (Rect.block (s := S256x196x512) S16x196x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S256x512.size a
  hwx0_1 : ∀ i : grid0.Coords, EltTy.bits .f32 = 32 ∨ (Rect.block (s := S256x512) S16x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x77x512.size a ≤ S256x77x512.size a
  hwx1_0 : ∀ i : grid1.Coords, EltTy.bits .f32 = 32 ∨ (Rect.block (s := S256x77x512) S16x77x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S256x512.size a
  hwx1_1 : ∀ i : grid1.Coords, EltTy.bits .f32 = 32 ∨ (Rect.block (s := S256x512) S16x512.size (cc1_transform_1 i) (hinb1_1 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

abbrev win0_0 : Pipeline.Window sig grid0 :=
  Pipeline.Window.ofSpec (Memref.whole main_arg0) S16x196x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S16x77x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S256x196x512 : Shape := ⟨3, ![256, 196, 512]⟩
abbrev S256x77x512 : Shape := ⟨3, ![256, 77, 512]⟩
abbrev S_ : Shape := ⟨0, ![]⟩
abbrev S256x196 : Shape := ⟨2, ![256, 196]⟩
abbrev S256x196x1 : Shape := ⟨3, ![256, 196, 1]⟩
abbrev S256x512 : Shape := ⟨2, ![256, 512]⟩
abbrev S256x77 : Shape := ⟨2, ![256, 77]⟩
abbrev S256x77x1 : Shape := ⟨3, ![256, 77, 1]⟩
abbrev S256x256 : Shape := ⟨2, ![256, 256]⟩
abbrev S256 : Shape := ⟨1, ![256]⟩
abbrev S256x1 : Shape := ⟨2, ![256, 1]⟩
abbrev S256x2 : Shape := ⟨2, ![256, 2]⟩

abbrev nBuf : Space → Nat
  | .hbm => 117
  | .vmem => 0
  | .smem => 0
  | _ => 0

abbrev bufTy : (tb : Table) → Fin (tcTables nBuf tb) → BufTy
  | .hbm, ⟨0, _⟩ => ⟨S256x196x512, .f32⟩
  | .hbm, ⟨1, _⟩ => ⟨S256x77x512, .f32⟩
  | .hbm, ⟨2, _⟩ => ⟨S256x196x512, .f32⟩
  | .hbm, ⟨3, _⟩ => ⟨S_, .f32⟩
  | .hbm, ⟨4, _⟩ => ⟨S256x196, .f32⟩
  | .hbm, ⟨5, _⟩ => ⟨S256x196x1, .f32⟩
  | .hbm, ⟨6, _⟩ => ⟨S256x196x1, .f32⟩
  | .hbm, ⟨7, _⟩ => ⟨S_, .f32⟩
  | .hbm, ⟨8, _⟩ => ⟨S256x196x1, .f32⟩
  | .hbm, ⟨9, _⟩ => ⟨S256x196x1, .f32⟩
  | .hbm, ⟨10, _⟩ => ⟨S256x196x512, .f32⟩
  | .hbm, ⟨11, _⟩ => ⟨S256x196x512, .f32⟩
  | .hbm, ⟨12, _⟩ => ⟨S_, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x77x512, .f32⟩
  | .hbm, ⟨18, _⟩ => ⟨S_, .f32⟩
  | .hbm, ⟨19, _⟩ => ⟨S256x77, .f32⟩
  | .hbm, ⟨20, _⟩ => ⟨S256x77x1, .f32⟩
  | .hbm, ⟨21, _⟩ => ⟨S256x77x1, .f32⟩
  | .hbm, ⟨22, _⟩ => ⟨S_, .f32⟩
  | .hbm, ⟨23, _⟩ => ⟨S256x77x1, .f32⟩
  | .hbm, ⟨24, _⟩ => ⟨S256x77x1, .f32⟩
  | .hbm, ⟨25, _⟩ => ⟨S256x77x512, .f32⟩
  | .hbm, ⟨26, _⟩ => ⟨S256x77x512, .f32⟩
  | .hbm, ⟨27, _⟩ => ⟨S_, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256, .i32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256x1, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S256, .f32⟩
  | .hbm, ⟨48, _⟩ => ⟨S256x1, .f32⟩
  | .hbm, ⟨49, _⟩ => ⟨S256x1, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S_, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256x1, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S_, .f32⟩
  | .hbm, ⟨63, _⟩ => ⟨S256, .f32⟩
  | .hbm, ⟨64, _⟩ => ⟨S256x1, .f32⟩
  | .hbm, ⟨65, _⟩ => ⟨S256x1, .f32⟩
  | .hbm, ⟨66, _⟩ => ⟨S256x256, .f32⟩
  | .hbm, ⟨67, _⟩ => ⟨S256x256, .f32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S256x1, .i32⟩
  | .hbm, ⟨83, _⟩ => ⟨S256x1, .i32⟩
  | .hbm, ⟨84, _⟩ => ⟨S256x2, .i32⟩
  | .hbm, ⟨85, _⟩ => ⟨S256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .i32⟩
  | .hbm, ⟨92, _⟩ => ⟨S256, .i32⟩
  | .hbm, ⟨93, _⟩ => ⟨S256, .i1⟩
  | .hbm, ⟨94, _⟩ => ⟨S_, .i32⟩
  | .hbm, ⟨95, _⟩ => ⟨S256, .i32⟩
  | .hbm, ⟨96, _⟩ => ⟨S256, .i32⟩
  | .hbm, ⟨97, _⟩ => ⟨S256, .i32⟩
  | .hbm, ⟨98, _⟩ => ⟨S_, .i32⟩
  | .hbm, ⟨99, _⟩ => ⟨S256, .i32⟩
  | .hbm, ⟨100, _⟩ => ⟨S256, .i1⟩
  | .hbm, ⟨101, _⟩ => ⟨S_, .i32⟩
  | .hbm, ⟨102, _⟩ => ⟨S256, .i32⟩
  | .hbm, ⟨103, _⟩ => ⟨S256, .i32⟩
  | .hbm, ⟨104, _⟩ => ⟨S256, .i32⟩
  | .hbm, ⟨105, _⟩ => ⟨S256x1, .i32⟩
  | .hbm, ⟨106, _⟩ => ⟨S256x1, .i32⟩
  | .hbm, ⟨107, _⟩ => ⟨S256x2, .i32⟩
  | .hbm, ⟨108, _⟩ => ⟨S256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S256x196x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v20 : Ref sig .tc := ⟨.hbm, 51, rfl⟩
abbrev main_v21 : Ref sig .tc := ⟨.hbm, 52, rfl⟩
abbrev main_call3_cst : Ref sig .tc := ⟨.hbm, 53, rfl⟩
abbrev main_call3_v0 : Ref sig .tc := ⟨.hbm, 54, rfl⟩
abbrev main_call3_cst_0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_cst_1 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_v22 : Ref sig .tc := ⟨.hbm, 67, rfl⟩
abbrev main_c : Ref sig .tc := ⟨.hbm, 68, rfl⟩
abbrev main_v23 : Ref sig .tc := ⟨.hbm, 69, rfl⟩
abbrev main_v24 : Ref sig .tc := ⟨.hbm, 70, rfl⟩
abbrev main_c_6 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c_7 : Ref sig .tc := ⟨.hbm, 75, rfl⟩
abbrev main_v28 : Ref sig .tc := ⟨.hbm, 76, rfl⟩
abbrev main_v29 : Ref sig .tc := ⟨.hbm, 77, rfl⟩
abbrev main_c_8 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_9 : Ref sig .tc := ⟨.hbm, 86, rfl⟩
abbrev main_v37 : Ref sig .tc := ⟨.hbm, 87, rfl⟩
abbrev main_cst_10 : Ref sig .tc := ⟨.hbm, 88, rfl⟩
abbrev main_v38 : Ref sig .tc := ⟨.hbm, 89, rfl⟩
abbrev main_v39 : Ref sig .tc := ⟨.hbm, 90, rfl⟩
abbrev main_c_11 : Ref sig .tc := ⟨.hbm, 91, rfl⟩
abbrev main_v40 : Ref sig .tc := ⟨.hbm, 92, rfl⟩
abbrev main_v41 : Ref sig .tc := ⟨.hbm, 93, rfl⟩
abbrev main_c_12 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_c_13 : Ref sig .tc := ⟨.hbm, 98, rfl⟩
abbrev main_v45 : Ref sig .tc := ⟨.hbm, 99, rfl⟩
abbrev main_v46 : Ref sig .tc := ⟨.hbm, 100, rfl⟩
abbrev main_c_14 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_15 : Ref sig .tc := ⟨.hbm, 109, rfl⟩
abbrev main_v54 : Ref sig .tc := ⟨.hbm, 110, rfl⟩
abbrev main_cst_16 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_cst_17 : Ref sig .tc := ⟨.hbm, 115, rfl⟩
abbrev main_v58 : Ref sig .tc := ⟨.hbm, 116, rfl⟩

abbrev nD : Nat := 1
abbrev τ : Topo := Topo.v7x

variable {F : FTy → Type} [FloatOps F]

class Facts₀ : Prop where
  reducesTo_S256x196x512_S256x196_d2 : S256x196x512.ReducesTo [2] S256x196
  h_S_ : 0 < S_.numel
  bcast_S256x196_S256x196x1_0_1 : S256x196.BroadcastsInDim S256x196x1 (![0, 1] : Fin 2 → Fin S256x196x1.rank)
  bcast_S_S256x196x1 : S_.BroadcastsInDim S256x196x1 (![] : Fin 0 → Fin S256x196x1.rank)
  bcast_S256x196x1_S256x196x512_0_1_2 : S256x196x1.BroadcastsInDim S256x196x512 (![0, 1, 2] : Fin 3 → Fin S256x196x512.rank)
  reducesTo_S256x196x512_S256x512_d1 : S256x196x512.ReducesTo [1] S256x512
  bcast_S_S256x512 : S_.BroadcastsInDim S256x512 (![] : Fin 0 → Fin S256x512.rank)
  reducesTo_S256x77x512_S256x77_d2 : S256x77x512.ReducesTo [2] S256x77
  bcast_S256x77_S256x77x1_0_1 : S256x77.BroadcastsInDim S256x77x1 (![0, 1] : Fin 2 → Fin S256x77x1.rank)
  bcast_S_S256x77x1 : S_.BroadcastsInDim S256x77x1 (![] : Fin 0 → Fin S256x77x1.rank)
  bcast_S256x77x1_S256x77x512_0_1_2 : S256x77x1.BroadcastsInDim S256x77x512 (![0, 1, 2] : Fin 3 → Fin S256x77x512.rank)
  reducesTo_S256x77x512_S256x512_d1 : S256x77x512.ReducesTo [1] S256x512
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  concatenates_S256x1_S256x1_S256x2_d1 : Shape.Concatenates [S256x1, S256x1] S256x2 1
  reducesTo_S256_S_d0 : S256.ReducesTo [0] S_
  dot_S256x512_S256x512_S256x256_1_1_0_0_n_n_wf : DotDims.WF S256x512 S256x512 S256x256 [1] [1] [0] [0] [] []
  gather_S256x256_S256x2_S256_n_01_n_n_01_1_11_wf : GatherDims.WF S256x256 S256x2 S256 [] [0, 1] [] [0, 1] [] 1 ![1, 1]

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

class Facts : Prop extends Facts₀ where

variable [Facts]
-- ==== Proof.UnitRowMean.lean ====
/-
  The mean over the middle axis of a rank-3 array whose rows (along the last axis) are first scaled to unit
  Euclidean length, the length floored at ε. For x of extents [A, S, D], at row a and column d:

      M x (a, d) = ( Σ_s  x(a,s,d) / max( √(Σ_e x(a,s,e)²), ε ) ) / n

  over the extended reals: the quotient is `Ideal.div`, the root `Ideal.sqrt`, the sums are the additive
  monoid's, so no order of summation is in the statement. The function is stated for any extents, index by
  index, and one law is proved of it: its value in row a is a function of the slab x(a, ·, ·) alone. Hence a
  band of consecutive rows of M x is M of that band of rows of x: what lets a computation that walks the array
  sixteen rows at a time be compared with one that takes the whole array at once.
-/
import Idealize.ShloMosaic.PureOps.Ideal
import Idealize.ShloMosaic.Lib.ValueIdx

noncomputable section

open scoped BigOperators

namespace Cert.UnitRowMean

open Idealize.ShloMosaic Idealize.ShloMosaic.ValueIdx

variable {A S D : Nat}

/-- The squared Euclidean length of row (a, s): Σ_e x(a,s,e)². -/
def sumSq (x : (⟨3, ![A, S, D]⟩ : Shape).Idx → EReal) (a : Fin A) (s : Fin S) : EReal :=
  ∑ e : Fin D, x (ix3 a s e) * x (ix3 a s e)

/-- Entry d of row (a, s) after the row is divided by its length, the length floored at ε. -/
def unitRow (ε : EReal) (x : (⟨3, ![A, S, D]⟩ : Shape).Idx → EReal) (a : Fin A) (s : Fin S) (d : Fin D) : EReal :=
  Ideal.div (x (ix3 a s d)) (max (Ideal.sqrt (sumSq x a s)) ε)

/-- The mean over s of the unit rows: their sum divided by n (n is the count S as the programs spell it). -/
def meanUnitRows (ε n : EReal) (x : (⟨3, ![A, S, D]⟩ : Shape).Idx → EReal) : (⟨2, ![A, D]⟩ : Shape).Idx → EReal :=
  fun j => Ideal.div (∑ s : Fin S, unitRow ε x (j 0) s (j 1)) n

/-- The mean at explicit coordinates. -/
theorem meanUnitRows_ix2 (ε n : EReal) (x : (⟨3, ![A, S, D]⟩ : Shape).Idx → EReal) (a : Fin A) (d : Fin D) :
    meanUnitRows ε n x (ix2 a d) = Ideal.div (∑ s : Fin S, unitRow ε x a s d) n := rfl

/-- ROWS ARE INDEPENDENT: if slab a of x is slab a' of y, the mean of x in row a is the mean of y in row a'. -/
theorem meanUnitRows_of_slab {A' : Nat} (ε n : EReal) (x : (⟨3, ![A, S, D]⟩ : Shape).Idx → EReal)
    (y : (⟨3, ![A', S, D]⟩ : Shape).Idx → EReal) (a : Fin A) (a' : Fin A')
    (h : ∀ (s : Fin S) (e : Fin D), x (ix3 a s e) = y (ix3 a' s e)) (d : Fin D) :
    meanUnitRows ε n x (ix2 a d) = meanUnitRows ε n y (ix2 a' d) := by
  simp only [meanUnitRows_ix2, unitRow, sumSq, h]

end Cert.UnitRowMean

end
-- ==== Proof.LossTail.lean ====
/-
  What both programs do with the two pooled embeddings a, b : [256, 512] once they have them — the same
  operations in the same order on either side, named here once so that neither side is ever opened:

    logits a b        = (a · bᵀ) / τ                     the similarity of every row of a with every row of b,
                                                        divided by the temperature literal τ;
    logSoftmax z      = (z − rowmax z) − log Σ_j exp (z − rowmax z)     row by row;
    negDiagMean ι z   = −( Σ_i z(ι_i, ι_i) ) / 256       the diagonal picked by a gather at the index pairs (ι_i, ι_i),
                                                        ι the row numbers 0 … 255 (each coordinate "wrapped" as jnp
                                                        does: i + 256 if i < 0);
    lossOf ι zm zt    = ( negDiagMean ι zm + negDiagMean ι zt ) · ½;
    loss a b          = lossOf iota (logSoftmax (logits a b)) (logSoftmax (logits a b)ᵀ).

  They are written over the operations of the printed programs, for any float instance; nothing is proved of
  them here. The two programs' results are shown equal to them elsewhere, by unfolding names only.
-/
import proofs.«141613_j14791867367486_1_alg».proof.Proof.Gen.KernelIdeal

noncomputable section

namespace Cert.KernelIdeal.Tail

open Cert.KernelIdeal Cert.KernelIdeal.Gen Idealize.ShloMosaic Idealize.ShloMosaic.TcCoe

variable {F : FTy → Type} [FloatOps F]

/-- The similarity logits: row i of `a` against row j of `b`, over the temperature. -/
def logits (a b : (⟨S256x512, .f32⟩ : BufTy).Contents (Elt F)) : (⟨S256x256, .f32⟩ : BufTy).Contents (Elt F) :=
  Host.divf (Host.dotGeneral dot_S256x512_S256x512_S256x256_1_1_0_0_n_n none a b)
    (broadcastInDim S256x256 ![] bcast_S_S256x256 (constant (F := F) S_ .f32 0x3D8F5C29#32))

/-- A [256] vector laid along the rows of a [256, 256] array (through [256, 1]). -/
def alongRows (v : (⟨S256, .f32⟩ : BufTy).Contents (Elt F)) : (⟨S256x256, .f32⟩ : BufTy).Contents (Elt F) :=
  broadcastInDim S256x256 ![0, 1] bcast_S256x1_S256x256_0_1 (broadcastInDim S256x1 ![0] bcast_S256_S256x1_0 v)

/-- Each row less its maximum (the maximum taken from −∞, and once more against a row of −∞, as jax spells it). -/
def centered (z : (⟨S256x256, .f32⟩ : BufTy).Contents (Elt F)) : (⟨S256x256, .f32⟩ : BufTy).Contents (Elt F) :=
  subf z (alongRows (maximumf (broadcastInDim S256 ![] bcast_S_S256 (constant (F := F) S_ .f32 0xFF800000#32))
    (Host.reduce FloatOps.maximumf z (constant (F := F) S_ .f32 0xFF800000#32) reducesTo_S256x256_S256_d1 h_S_)))

/-- The row-wise log-softmax: the centered rows less the logarithm of the sum of their exponentials. -/
def logSoftmax (z : (⟨S256x256, .f32⟩ : BufTy).Contents (Elt F)) : (⟨S256x256, .f32⟩ : BufTy).Contents (Elt F) :=
  subf (centered z) (broadcastInDim S256x256 ![0, 1] bcast_S256x1_S256x256_0_1 (Host.log (broadcastInDim S256x1 ![0] bcast_S256_S256x1_0
    (Host.reduceAdd (Host.exp (centered z)) (constant (F := F) S_ .f32 0x00000000#32) reducesTo_S256x256_S256_d1 h_S_))))

/-- Row numbers `io`, each wrapped as a jnp index is (i + 256 where i < 0). -/
def wrapped (io : (⟨S256, .i32⟩ : BufTy).Contents (Elt F)) : (⟨S256, .i32⟩ : BufTy).Contents (Elt F) :=
  select (cmpi .slt io (broadcastInDim S256 ![] bcast_S_S256 (constantI S_ 32 0#32)))
    (addi io (broadcastInDim S256 ![] bcast_S_S256 (constantI S_ 32 256#32))) io

/-- The index pairs (i, i): the wrapped row numbers as both columns of a [256, 2] array. -/
def diagIndex (io : (⟨S256, .i32⟩ : BufTy).Contents (Elt F)) : (⟨S256x2, .i32⟩ : BufTy).Contents (Elt F) :=
  concatenate S256x2 1 [⟨S256x1, broadcastInDim S256x1 ![0] bcast_S256_S256x1_0 (wrapped (F := F) io)⟩,
    ⟨S256x1, broadcastInDim S256x1 ![0] bcast_S256_S256x1_0 (wrapped (F := F) io)⟩] concatenates_S256x1_S256x1_S256x2_d1

/-- Minus the mean of the diagonal: the gather at (i, i), summed, over 256, negated. -/
def negDiagMean (io : (⟨S256, .i32⟩ : BufTy).Contents (Elt F)) (z : (⟨S256x256, .f32⟩ : BufTy).Contents (Elt F)) :
    (⟨S_, .f32⟩ : BufTy).Contents (Elt F) :=
  Host.negf (Host.divf (Host.reduceAdd (Host.gather gather_S256x256_S256x2_S256_n_01_n_n_01_1_11 z (diagIndex (F := F) io))
    (constant (F := F) S_ .f32 0x00000000#32) reducesTo_S256_S_d0 h_S_) (constant (F := F) S_ .f32 0x43800000#32))

/-- The two directions' diagonal terms, added and halved. -/
def lossOf (io : (⟨S256, .i32⟩ : BufTy).Contents (Elt F)) (zm zt : (⟨S256x256, .f32⟩ : BufTy).Contents (Elt F)) :
    (⟨S_, .f32⟩ : BufTy).Contents (Elt F) :=
  mulf (addf (negDiagMean io zm) (negDiagMean io zt)) (constant (F := F) S_ .f32 0x3F000000#32)

/-- The logits seen from the other side. -/
def logitsT (a b : (⟨S256x512, .f32⟩ : BufTy).Contents (Elt F)) : (⟨S256x256, .f32⟩ : BufTy).Contents (Elt F) :=
  transpose S256x256 [1, 0] (logits a b) transposes_S256x256_S256x256_1_0

/-- The symmetric contrastive loss of the two pooled embeddings. -/
def loss (a b : (⟨S256x512, .f32⟩ : BufTy).Contents (Elt F)) : (⟨S_, .f32⟩ : BufTy).Contents (Elt F) :=
  lossOf (iotaInDim S256 32 0) (logSoftmax (logits a b)) (logSoftmax (logitsT a b))

end Cert.KernelIdeal.Tail

end
-- ==== Proof.RefValue.lean ====
/-
  The reference, read at the ideal instance. Its two pooled arrays — `jnp.linalg.norm` along the last axis, the
  floor ε, the quotient, the mean over the middle axis — are, index by index, the mean of the unit rows
  (`Cert.UnitRowMean.meanUnitRows`) of `motion_seq` and of `text_seq`: each stage of the generated reading is opened
  at an index and the indices its layout operations read are identified with coordinates. Everything the reference
  does after that is the tail both programs share: its loss and logits stages ARE `Tail.loss` and `Tail.logits` of the
  two pooled stages, by unfolding names (for any float instance).
-/
import proofs.«141613_j14791867367486_1_alg».proof.Proof.RefRead
import proofs.«141613_j14791867367486_1_alg».proof.Proof.UnitRowMean
import proofs.«141613_j14791867367486_1_alg».proof.Proof.LossTail
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.ReadP Cert.UnitRowMean

/-- The floor under a row's length, as the extended real the printed word denotes. -/
abbrev eps : EReal := Ideal.ofBits .f32 0x2B8CBCCC#32

/-- The reference's pooled motion embedding, read index by index: the mean over the 196 positions of the unit rows. -/
theorem motion_eq (x0 : (⟨S256x196x512, .f32⟩ : BufTy).Contents (Elt Ideal)) :
    val_main_v7 (F := Ideal) x0
      = meanUnitRows (A := 256) (S := 196) (D := 512) eps (Ideal.ofBits .f32 0x43440000#32) (x0 : S256x196x512.Idx → EReal) := by
  funext i
  obtain ⟨p, q, rfl⟩ : ∃ (p : Fin 256) (q : Fin 512), i = ix2 p q := ⟨i 0, i 1, eq_ix2 i⟩
  rw [meanUnitRows_ix2, val_main_v7_apply, val_main_v5_apply, val_main_v6_apply]
  simp only [val_main_cst_0_apply, val_main_cst_1_apply, Ideal.hostDivf_def, Ideal.ofBits_def, Ideal.ofBits_zero_f32, zero_add]
  refine congrArg (fun t => Ideal.div t _) (Finset.sum_congr rfl fun s _ => ?_)
  have e5 : idx_main_v5 (ix2 p q) s = ix3 p s q :=
    funext fun a => Fin.ext (by match a with | ⟨0, _⟩ => rfl | ⟨1, _⟩ => rfl | ⟨2, _⟩ => rfl)
  rw [e5, val_main_v4_apply, val_main_v3_apply]
  have e3 : idx_main_v3 (ix3 p s q) = ix3 p s (0 : Fin 1) :=
    funext fun a => Fin.ext (by match a with | ⟨0, _⟩ => rfl | ⟨1, _⟩ => rfl | ⟨2, _⟩ => rfl)
  rw [e3, val_main_v2_apply, val_main_v0_apply, val_main_v1_apply, val_main_call0_v2_apply]
  have e2 : idx_main_call0_v2 (ix3 p s (0 : Fin 1)) = ix2 p s :=
    funext fun a => Fin.ext (by match a with | ⟨0, _⟩ => rfl | ⟨1, _⟩ => rfl)
  rw [e2, val_main_call0_v1_apply]
  simp only [val_main_cst_apply, val_main_call0_cst_apply, Ideal.hostDivf_def, Ideal.maximumf_def, Ideal.hostUnary_sqrt_def, Ideal.ofBits_def,
    Ideal.ofBits_zero_f32, zero_add]
  unfold unitRow sumSq
  refine congrArg (fun t => Ideal.div (x0 (ix3 p s q)) (max (Ideal.sqrt t) eps)) (Finset.sum_congr rfl fun e _ => ?_)
  have e1 : idx_main_call0_v1 (ix2 p s) e = ix3 p s e :=
    funext fun a => Fin.ext (by match a with | ⟨0, _⟩ => rfl | ⟨1, _⟩ => rfl | ⟨2, _⟩ => rfl)
  rw [e1, val_main_call0_v0_apply]
  rfl

/-- The reference's pooled text embedding, read index by index: the mean over the 77 positions of the unit rows. -/
theorem text_eq (x1 : (⟨S256x77x512, .f32⟩ : BufTy).Contents (Elt Ideal)) :
    val_main_v15 (F := Ideal) x1
      = meanUnitRows (A := 256) (S := 77) (D := 512) eps (Ideal.ofBits .f32 0x429A0000#32) (x1 : S256x77x512.Idx → EReal) := by
  funext i
  obtain ⟨p, q, rfl⟩ : ∃ (p : Fin 256) (q : Fin 512), i = ix2 p q := ⟨i 0, i 1, eq_ix2 i⟩
  rw [meanUnitRows_ix2, val_main_v15_apply, val_main_v13_apply, val_main_v14_apply]
  simp only [val_main_cst_3_apply, val_main_cst_4_apply, Ideal.hostDivf_def, Ideal.ofBits_def, Ideal.ofBits_zero_f32, zero_add]
  refine congrArg (fun t => Ideal.div t _) (Finset.sum_congr rfl fun s _ => ?_)
  have e5 : idx_main_v13 (ix2 p q) s = ix3 p s q :=
    funext fun a => Fin.ext (by match a with | ⟨0, _⟩ => rfl | ⟨1, _⟩ => rfl | ⟨2, _⟩ => rfl)
  rw [e5, val_main_v12_apply, val_main_v11_apply]
  have e3 : idx_main_v11 (ix3 p s q) = ix3 p s (0 : Fin 1) :=
    funext fun a => Fin.ext (by match a with | ⟨0, _⟩ => rfl | ⟨1, _⟩ => rfl | ⟨2, _⟩ => rfl)
  rw [e3, val_main_v10_apply, val_main_v8_apply, val_main_v9_apply, val_main_call1_v2_apply]
  have e2 : idx_main_call1_v2 (ix3 p s (0 : Fin 1)) = ix2 p s :=
    funext fun a => Fin.ext (by match a with | ⟨0, _⟩ => rfl | ⟨1, _⟩ => rfl)
  rw [e2, val_main_call1_v1_apply]
  simp only [val_main_cst_2_apply, val_main_call1_cst_apply, Ideal.hostDivf_def, Ideal.maximumf_def, Ideal.hostUnary_sqrt_def, Ideal.ofBits_def,
    Ideal.ofBits_zero_f32, zero_add]
  unfold unitRow sumSq
  refine congrArg (fun t => Ideal.div (x1 (ix3 p s q)) (max (Ideal.sqrt t) eps)) (Finset.sum_congr rfl fun e _ => ?_)
  have e1 : idx_main_call1_v1 (ix2 p s) e = ix3 p s e :=
    funext fun a => Fin.ext (by match a with | ⟨0, _⟩ => rfl | ⟨1, _⟩ => rfl | ⟨2, _⟩ => rfl)
  rw [e1, val_main_call1_v0_apply]
  rfl

/-! ## The shared tail -/

section Tail

variable {F : FTy → Type} [FloatOps F]

/-- The reference's logits stage is the tail's `logits` of its two pooled stages. -/
theorem logits_eq (x0 : (⟨S256x196x512, .f32⟩ : BufTy).Contents (Elt F)) (x1 : (⟨S256x77x512, .f32⟩ : BufTy).Contents (Elt F)) :
    val_main_v18 (F := F) x0 x1 = Cert.KernelIdeal.Tail.logits (F := F) (val_main_v7 (F := F) x0) (val_main_v15 (F := F) x1) := rfl

set_option maxRecDepth 16384 in
/-- The reference's loss stage is the tail's `loss` of its two pooled stages. -/
theorem loss_eq (x0 : (⟨S256x196x512, .f32⟩ : BufTy).Contents (Elt F)) (x1 : (⟨S256x77x512, .f32⟩ : BufTy).Contents (Elt F)) :
    val_main_v58 (F := F) x0 x1 = Cert.KernelIdeal.Tail.loss (F := F) (val_main_v7 (F := F) x0) (val_main_v15 (F := F) x1) := rfl

end Tail

end Cert.ReferenceIdeal.RefValue

end
-- ==== Proof.KernelTail.lean ====
/-
  The kernel program's host operations after its two pallas_calls, read stretch by stretch: from ANY buffer contents
  X, what each stretch leaves in the buffers later operations read, as the named functions of the tail
  (`Tail.logits`, `logSoftmax`, `lossOf`) of what X holds — and that it leaves the other buffers of interest as they
  were. Chained from the contents at the second region's exit (`Gen.W2`) to the last boundary (`Gen.W7`), the loss
  buffer ends at `loss` and the logits buffer at `logits` of the two pooled arrays.
-/
import proofs.«141613_j14791867367486_1_alg».proof.Proof.Gen.KernelIdeal.Frame
import proofs.«141613_j14791867367486_1_alg».proof.Proof.LossTail
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo

variable {F : FTy → Type} [FloatOps F]

section Stretches

variable (X : Valuation τ sig (Elt F))

/-! ### The first stretch: the product of the pooled arrays, the temperature, the row numbers -/

theorem s0_logits : after hostOps2 X (Proc.devRef .tc main_v4)
    = logits (X (Proc.devRef .tc main_v0)) (X (Proc.devRef .tc main_v1)) := by
  after_results_simp <;> rfl

theorem s0_iota : after hostOps2 X (Proc.devRef .tc main_v5) = iotaInDim S256 32 0 := by
  after_results_simp <;> rfl

/-! ### The first log-softmax -/

set_option maxHeartbeats 1000000 in
theorem s1_lsm : after hostOps2_1 X (Proc.devRef .tc main_v6) = logSoftmax (X (Proc.devRef .tc main_v4)) := by
  after_results_simp <;> (try simp only [TRef.ofBuf, TRef.toBuf, cast_eq]) <;> rfl

theorem s1_logits : after hostOps2_1 X (Proc.devRef .tc main_v4) = X (Proc.devRef .tc main_v4) := by
  after_results_simp <;> rfl

theorem s1_iota : after hostOps2_1 X (Proc.devRef .tc main_v5) = X (Proc.devRef .tc main_v5) := by
  after_results_simp <;> rfl

/-! ### The transpose -/

theorem s2_T : after hostOps2_2 X (Proc.devRef .tc main_v7)
    = transpose S256x256 [1, 0] (X (Proc.devRef .tc main_v4)) transposes_S256x256_S256x256_1_0 := by
  after_results_simp <;> rfl

theorem s2_logits : after hostOps2_2 X (Proc.devRef .tc main_v4) = X (Proc.devRef .tc main_v4) := by
  after_results_simp <;> rfl

theorem s2_iota : after hostOps2_2 X (Proc.devRef .tc main_v5) = X (Proc.devRef .tc main_v5) := by
  after_results_simp <;> rfl

theorem s2_lsm : after hostOps2_2 X (Proc.devRef .tc main_v6) = X (Proc.devRef .tc main_v6) := by
  after_results_simp <;> rfl

/-! ### The second log-softmax -/

set_option maxHeartbeats 1000000 in
theorem s3_lsm : after hostOps2_3 X (Proc.devRef .tc main_v8) = logSoftmax (X (Proc.devRef .tc main_v7)) := by
  after_results_simp <;> (try simp only [TRef.ofBuf, TRef.toBuf, cast_eq]) <;> rfl

theorem s3_logits : after hostOps2_3 X (Proc.devRef .tc main_v4) = X (Proc.devRef .tc main_v4) := by
  after_results_simp <;> rfl

theorem s3_iota : after hostOps2_3 X (Proc.devRef .tc main_v5) = X (Proc.devRef .tc main_v5) := by
  after_results_simp <;> rfl

theorem s3_lsm0 : after hostOps2_3 X (Proc.devRef .tc main_v6) = X (Proc.devRef .tc main_v6) := by
  after_results_simp <;> rfl

/-! ### The last stretch: the two diagonals, their means, the halved sum -/

set_option maxHeartbeats 4000000 in
theorem s4_loss : after hostOps2_4 X (Proc.devRef .tc main_v44)
    = lossOf (X (Proc.devRef .tc main_v5)) (X (Proc.devRef .tc main_v6)) (X (Proc.devRef .tc main_v8)) := by
  after_results_simp <;> rfl

set_option maxHeartbeats 1000000 in
theorem s4_logits : after hostOps2_4 X (Proc.devRef .tc main_v4) = X (Proc.devRef .tc main_v4) := by
  after_results_simp <;> rfl

end Stretches

/-! ## From the second region's exit to the last boundary -/

variable (m : (ℓ : Loc nD τ sig) → Buf (Elt F) ℓ) (ρ : Dev nD → PrngReg)

/-- The logits buffer at the last boundary: `logits` of the two pooled arrays as the regions left them. -/
theorem W7_logits (c : Dev nD) : W7 m ρ c (Proc.devRef .tc main_v4)
    = logits (W2 m ρ c (Proc.devRef .tc main_v0)) (W2 m ρ c (Proc.devRef .tc main_v1)) :=
  calc W7 m ρ c (Proc.devRef .tc main_v4)
    _ = W6 m ρ c (Proc.devRef .tc main_v4) := s4_logits (W6 m ρ c)
    _ = W5 m ρ c (Proc.devRef .tc main_v4) := s3_logits (W5 m ρ c)
    _ = W4 m ρ c (Proc.devRef .tc main_v4) := s2_logits (W4 m ρ c)
    _ = W3 m ρ c (Proc.devRef .tc main_v4) := s1_logits (W3 m ρ c)
    _ = _ := s0_logits (W2 m ρ c)

/-- The loss buffer at the last boundary: `loss` of the two pooled arrays as the regions left them. -/
theorem W7_loss (c : Dev nD) : W7 m ρ c (Proc.devRef .tc main_v44)
    = loss (W2 m ρ c (Proc.devRef .tc main_v0)) (W2 m ρ c (Proc.devRef .tc main_v1)) := by
  have h4 : W3 m ρ c (Proc.devRef .tc main_v4)
      = logits (W2 m ρ c (Proc.devRef .tc main_v0)) (W2 m ρ c (Proc.devRef .tc main_v1)) := s0_logits (W2 m ρ c)
  have i6 : W6 m ρ c (Proc.devRef .tc main_v5) = iotaInDim S256 32 0 :=
    (s3_iota (W5 m ρ c)).trans ((s2_iota (W4 m ρ c)).trans ((s1_iota (W3 m ρ c)).trans (s0_iota (W2 m ρ c))))
  have l6 : W6 m ρ c (Proc.devRef .tc main_v6)
      = logSoftmax (logits (W2 m ρ c (Proc.devRef .tc main_v0)) (W2 m ρ c (Proc.devRef .tc main_v1))) :=
    (s3_lsm0 (W5 m ρ c)).trans ((s2_lsm (W4 m ρ c)).trans ((s1_lsm (W3 m ρ c)).trans (congrArg logSoftmax h4)))
  have t5 : W5 m ρ c (Proc.devRef .tc main_v7)
      = logitsT (W2 m ρ c (Proc.devRef .tc main_v0)) (W2 m ρ c (Proc.devRef .tc main_v1)) :=
    (s2_T (W4 m ρ c)).trans (congrArg (fun z => transpose S256x256 [1, 0] z transposes_S256x256_S256x256_1_0)
      ((s1_logits (W3 m ρ c)).trans h4))
  have l8 : W6 m ρ c (Proc.devRef .tc main_v8)
      = logSoftmax (logitsT (W2 m ρ c (Proc.devRef .tc main_v0)) (W2 m ρ c (Proc.devRef .tc main_v1))) :=
    (s3_lsm (W5 m ρ c)).trans (congrArg logSoftmax t5)
  refine (s4_loss (W6 m ρ c)).trans ?_
  rw [i6, l6, l8]
  rfl

end Cert.KernelIdeal.Tail

end
-- ==== Proof.MotionPool.lean ====
/-
  The first pallas_call pools `motion_seq`, x : [256, 196, 512], sixteen rows of the first axis at a time. Here:
  what its body stores for one [16, 196, 512] block, read index by index — the mean over the 196 positions of the
  block's rows scaled to unit length, `meanUnitRows` of the block (`pay_eq`, `out_eq`); that block t of the input
  window is rows 16t … 16t+15 of the array (`iblk_apply`); and, because a row of the mean depends on its own slab
  of x only, that what point t writes back is block t of the mean taken over the WHOLE array (`flushed_eq`). The
  sixteen output blocks tile the [256, 512] result (`cover`), so after the region it holds `meanUnitRows` of the
  array as the region found it (`final`).

  The sum of squares along the last axis is a lane reduction, its [16,196] result recast to [16,196,1], floored by ε,
  and spread back along the last axis: each of these is read at an index by its own small lemma.
-/
import proofs.«141613_j14791867367486_1_alg».proof.Proof.Gen.KernelIdeal.Frame
import proofs.«141613_j14791867367486_1_alg».proof.Proof.UnitRowMean
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Motion

open Cert.KernelIdeal Cert.KernelIdeal.Gen Cert.UnitRowMean

/-- The floor ε under a row's length, and the count 196 the sum is divided by, as the extended reals the printed
    words denote (the same words on the reference's side: neither is ever evaluated). -/
abbrev eps : EReal := Ideal.ofBits .f32 0x2B8CBCCC#32
abbrev cnt : EReal := Ideal.ofBits .f32 0x43440000#32

/-! ## The body's operations that are not pointwise, each read at an index -/

/-- The lane sum of x² over the last axis, at (p, s): the squared length of row (p, s). -/
theorem rowSq_apply (x : FVec Ideal S16x196x512 .f32) (p : Fin 16) (s : Fin 196) :
    multiReduction .add [2] S16x196 (mulf x x) 0x00000000#32 reduces_S16x196x512_S16x196 (.inl rfl) rfl (ix2 p s)
      = sumSq (A := 16) (S := 196) (D := 512) x p s := by
  refine (Ideal.multiReduction_add_single (mulf x x) 0x00000000#32 reduces_S16x196x512_S16x196 (.inl rfl) rfl (ix2 p s)).trans ?_
  unfold sumSq
  refine Finset.sum_congr rfl fun e _ => ?_
  have hi : reduces_S16x196x512_S16x196.lift (ix2 p s) e = ix3 p s e :=
    funext fun a => Fin.ext (by match a with | ⟨0, _⟩ => rfl | ⟨1, _⟩ => rfl | ⟨2, _⟩ => rfl)
  rw [hi]; rfl

/-- [16,196] recast to [16,196,1]: entry (p, s, ·) is entry (p, s). -/
theorem keepdims_apply {α : Type} (v : S16x196.Idx → α) (p : Fin 16) (s : Fin 196) (z : Fin 1) :
    shapeCast S16x196x1 v shapeCasts_S16x196_S16x196x1 (ix3 p s z) = v (ix2 p s) := by
  refine shapeCast_apply v _ (ix3 p s z) (ix2 p s) ?_
  rw [Shape.rowMajor_val_two, Shape.rowMajor_val_three]
  have hz : z.val = 0 := by omega
  show p.val * 196 + s.val = (p.val * 196 + s.val) * 1 + z.val
  omega

/-- [16,196,1] spread along the last axis to [16,196,512]: entry (p, s, q) is entry (p, s, 0). -/
theorem spread_apply {α : Type} (v : S16x196x1.Idx → α) (p : Fin 16) (s : Fin 196) (q : Fin 512) :
    broadcastTo S16x196x512 v broadcasts_S16x196x1_S16x196x512 (ix3 p s q) = v (ix3 p s (0 : Fin 1)) := by
  refine broadcastTo_apply v _ (ix3 p s q) (ix3 p s (0 : Fin 1)) fun a => ?_
  match a with
  | ⟨0, _⟩ => show p.val = if (16 : Nat) = 1 then 0 else p.val; rw [if_neg (by decide)]
  | ⟨1, _⟩ => show s.val = if (196 : Nat) = 1 then 0 else s.val; rw [if_neg (by decide)]
  | ⟨2, _⟩ => show (0 : Nat) = if (1 : Nat) = 1 then 0 else q.val; rw [if_pos rfl]

/-- The lane sum over the middle axis, at (p, q): the sum over the 196 positions. -/
theorem colSum_apply (y : FVec Ideal S16x196x512 .f32) (p : Fin 16) (q : Fin 512) :
    multiReduction .add [1] S16x512 y 0x00000000#32 reduces_S16x196x512_S16x512 (.inl rfl) rfl (ix2 p q)
      = ∑ s : Fin 196, y (ix3 p s q) := by
  refine (Ideal.multiReduction_add_single y 0x00000000#32 reduces_S16x196x512_S16x512 (.inl rfl) rfl (ix2 p q)).trans ?_
  refine Finset.sum_congr rfl fun s _ => ?_
  exact congrArg y (funext fun a => Fin.ext (by match a with | ⟨0, _⟩ => rfl | ⟨1, _⟩ => rfl | ⟨2, _⟩ => rfl))

/-- The divisor the body spreads over a block: per row, the larger of the row's length and ε. -/
def floorLen (x : FVec Ideal S16x196x512 .f32) : FVec Ideal S16x196x512 .f32 :=
  broadcastTo S16x196x512 (maximumf (sqrt (shapeCast S16x196x1
      (multiReduction .add [2] S16x196 (mulf x x) 0x00000000#32 reduces_S16x196x512_S16x196 (.inl rfl) rfl) shapeCasts_S16x196_S16x196x1))
    (broadcast S16x196x1 (Scalar.ofBits (F := Ideal) .f32 0x2B8CBCCC#32))) broadcasts_S16x196x1_S16x196x512

theorem floorLen_apply (x : FVec Ideal S16x196x512 .f32) (p : Fin 16) (s : Fin 196) (q : Fin 512) :
    floorLen x (ix3 p s q) = max (Ideal.sqrt (sumSq (A := 16) (S := 196) (D := 512) x p s)) eps := by
  unfold floorLen
  rw [spread_apply]
  show max (Ideal.sqrt (shapeCast S16x196x1 _ shapeCasts_S16x196_S16x196x1 (ix3 p s (0 : Fin 1)))) eps = _
  rw [keepdims_apply, rowSq_apply]

/-! ## The body's stored value on one block -/

/-- At (p, q) the stored value is the mean over s of x(p,s,q) / max(‖x(p,s,·)‖, ε). -/
theorem pay_apply (x : FVec Ideal S16x196x512 .f32) (p : Fin 16) (q : Fin 512) :
    k0_pay1 (F := Ideal) x (ix2 p q) = meanUnitRows (A := 16) (S := 196) (D := 512) eps cnt x (ix2 p q) := by
  rw [meanUnitRows_ix2]
  have e1 : k0_pay1 (F := Ideal) x (ix2 p q)
      = Ideal.div (multiReduction .add [1] S16x512 (divf x (floorLen x)) 0x00000000#32 reduces_S16x196x512_S16x512 (.inl rfl) rfl (ix2 p q)) cnt := rfl
  rw [e1, colSum_apply]
  refine congrArg (fun t => Ideal.div t cnt) (Finset.sum_congr rfl fun s _ => ?_)
  show Ideal.div (x (ix3 p s q)) (floorLen x (ix3 p s q)) = _
  rw [floorLen_apply]; rfl

theorem pay_eq (x : FVec Ideal S16x196x512 .f32) :
    k0_pay1 (F := Ideal) x = meanUnitRows (A := 16) (S := 196) (D := 512) eps cnt x := by
  funext j
  obtain ⟨p, q, rfl⟩ : ∃ (p : Fin 16) (q : Fin 512), j = ix2 p q := ⟨j 0, j 1, eq_ix2 j⟩
  exact pay_apply x p q

theorem hz3 : (![0, 0, 0] : Fin 3 → Nat) = fun _ => 0 := funext fun a => by fin_cases a <;> rfl
theorem hz2 : (![0, 0] : Fin 2 → Nat) = fun _ => 0 := funext fun a => by fin_cases a <;> rfl

/-- The output window's staging buffer after the body: the one whole-buffer store of that value. -/
theorem out_eq (x : FVec Ideal S16x196x512 .f32) :
    out0_1 (F := Ideal) x = meanUnitRows (A := 16) (S := 196) (D := 512) eps cnt x := by
  unfold out0_1
  rw [View.canon_unit_zero hz2]
  simp only [View.ld_unit_zero (S := S16x196x512) hz3]
  exact pay_eq x

/-! ## From blocks to the array -/

section Array

variable (V : (c : Dev nD) → (b : Ref sig .tc) → Buf (Elt Ideal) ((c : Thread nD τ).loc b))

/-- The printed index maps, decided over the sixteen points: point t takes block (t, 0, 0) in and puts block (t, 0) out. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- Every block row of the result is some point's. -/
theorem idx_onto : ∀ q0 : Fin 16, ∃ t : Fin cfg0.N, win0_1.index t = ![q0.val, 0] :=
  (by decide +kernel : ∀ q0 : Fin 16, ∃ t : Fin grid0.N, win0_1.index t = ![q0.val, 0])

/-- The input window's block at point t is rows 16t … 16t+15 of the array, all positions, all columns. -/
theorem iblk_apply (c : Dev nD) (t : Fin cfg0.N) (y : S16x196x512.Idx) (k : S256x196x512.Idx)
    (h0 : (k 0).val = 16 * t.val + (y 0).val) (h1 : (k 1).val = (y 1).val) (h2 : (k 2).val = (y 2).val) :
    (iblk0 V c 0 t : Vec Ideal S16x196x512 .f32) y = (V c main_arg0 : S256x196x512.Idx → EReal) k := by
  obtain ⟨e0, e1, e2, -, -⟩ := idx_facts t
  unfold iblk0
  rw [View.read_apply]
  show V c main_arg0 _ = V c main_arg0 _
  congr 1
  funext a
  apply Fin.ext
  match a with
  | ⟨0, _⟩ => show win0_0.index t (0 : Fin 3) * 16 + 1 * (y 0).val = (k 0).val; rw [e0, h0]; omega
  | ⟨1, _⟩ => show win0_0.index t (1 : Fin 3) * 196 + 1 * (y 1).val = (k 1).val; rw [e1, h1]; omega
  | ⟨2, _⟩ => show win0_0.index t (2 : Fin 3) * 512 + 1 * (y 2).val = (k 2).val; rw [e2, h2]; omega

/-- A band of sixteen rows of the mean is the mean of that band of rows: row 16t + p of the whole is row p of the band. -/
theorem band_eq (X : S256x196x512.Idx → EReal) (xb : S16x196x512.Idx → EReal) (t : Nat)
    (hb : ∀ (y : S16x196x512.Idx) (k : S256x196x512.Idx), (k 0).val = 16 * t + (y 0).val → (k 1).val = (y 1).val →
      (k 2).val = (y 2).val → xb y = X k)
    (j : S16x512.Idx) (i : S256x512.Idx) (h0 : (i 0).val = 16 * t + (j 0).val) (h1 : (i 1).val = (j 1).val) :
    meanUnitRows (A := 16) (S := 196) (D := 512) eps cnt xb j = meanUnitRows (A := 256) (S := 196) (D := 512) eps cnt X i := by
  obtain ⟨p, q, rfl⟩ : ∃ (p : Fin 16) (q : Fin 512), j = ix2 p q := ⟨j 0, j 1, eq_ix2 j⟩
  obtain ⟨P, Q, rfl⟩ : ∃ (P : Fin 256) (Q : Fin 512), i = ix2 P Q := ⟨i 0, i 1, eq_ix2 i⟩
  have hQ : Q = q := Fin.ext h1
  subst hQ
  exact meanUnitRows_of_slab eps cnt xb X p P (fun s e => hb (ix3 p s e) (ix3 P s e) h0 rfl rfl) Q

/-- WHAT POINT t WRITES BACK is block t of the mean of the whole array as the region finds it. -/
theorem flushed_eq (c : Dev nD) (t : Fin cfg0.N) :
    (dat0 V c).flushed 1 t = ((cfg0.win 1).blk t).view.read (Elt Ideal)
      (meanUnitRows (A := 256) (S := 196) (D := 512) eps cnt (V c main_arg0 : S256x196x512.Idx → EReal)) := by
  show (cfg0.win 1).cut (grid0.coords t) ((dat0 V c).after 1 t) = _
  rw [after0_1, out_eq]
  obtain ⟨-, -, -, e3, e4⟩ := idx_facts t
  funext j
  show meanUnitRows (A := 16) (S := 196) (D := 512) eps cnt (iblk0 V c 0 t : Vec Ideal S16x196x512 .f32) j
    = meanUnitRows (A := 256) (S := 196) (D := 512) eps cnt (V c main_arg0 : S256x196x512.Idx → EReal) (((cfg0.win 1).blk t).view.emb j)
  refine band_eq _ _ t.val (fun y k a b d => iblk_apply V c t y k a b d) j _ ?_ ?_
  · show win0_1.index t (0 : Fin 2) * 16 + 1 * (j 0).val = 16 * t.val + (j 0).val; rw [e3]; omega
  · show win0_1.index t (1 : Fin 2) * 512 + 1 * (j 1).val = (j 1).val; rw [e4]; omega

/-- An index of the result is in point t's block iff each coordinate is in the block's range on its axis. -/
theorem mem_blk (t : Fin cfg0.N) (i : S256x512.Idx) :
    i ∈ ((cfg0.win 1).blk t).view.set ↔ ∀ a : Fin 2, win0_1.index t a * S16x512.size a ≤ (i a).val
      ∧ (i a).val < win0_1.index t a * S16x512.size a + S16x512.size a := by
  show i ∈ ((View.whole main_v0).slice (win0_1.rect t)).set ↔ _
  rw [View.set_slice_whole, Rect.mem_set_unit]
  exact Iff.rfl

/-- The sixteen blocks tile the result: row r is in the block of point r / 16. -/
theorem cover (i : S256x512.Idx) : ∃ t : Fin cfg0.N, (cfg0.win 1).flush t = true ∧ i ∈ ((cfg0.win 1).blk t).view.set := by
  have hi0 : (i 0).val < 256 := (i 0).isLt
  have hi1 : (i 1).val < 512 := (i 1).isLt
  obtain ⟨t, ht⟩ := idx_onto ⟨(i 0).val / 16, by omega⟩
  have q0 : win0_1.index t (0 : Fin 2) = (i 0).val / 16 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 512 ≤ (i 1).val ∧ (i 1).val < win0_1.index t (1 : Fin 2) * 512 + 512; omega

/-- THE RESULT ARRAY after the region: the mean of the unit rows of the array as the region found it. -/
theorem final (c : Dev nD) : (dat0 V c).arrAt 1 cfg0.N
    = meanUnitRows (A := 256) (S := 196) (D := 512) eps cnt (V c main_arg0 : S256x196x512.Idx → EReal) :=
  (dat0 V c).arrAt_eq_of_cover 1 _ (fun t _ => flushed_eq V c t) cover

end Array

end Cert.KernelIdeal.Motion

end
-- ==== Proof.TextPool.lean ====
/-
  The second pallas_call pools `text_seq`, x : [256, 77, 512], sixteen rows of the first axis at a time. Here:
  what its body stores for one [16, 77, 512] block, read index by index — the mean over the 77 positions of the
  block's rows scaled to unit length, `meanUnitRows` of the block (`pay_eq`, `out_eq`); that block t of the input
  window is rows 16t … 16t+15 of the array (`iblk_apply`); and, because a row of the mean depends on its own slab
  of x only, that what point t writes back is block t of the mean taken over the WHOLE array (`flushed_eq`). The
  sixteen output blocks tile the [256, 512] result (`cover`), so after the region it holds `meanUnitRows` of the
  array as the region found it (`final`).

  The sum of squares along the last axis is a lane reduction, its [16,77] result recast to [16,77,1], floored by ε,
  and spread back along the last axis: each of these is read at an index by its own small lemma.
-/
import proofs.«141613_j14791867367486_1_alg».proof.Proof.Gen.KernelIdeal.Frame
import proofs.«141613_j14791867367486_1_alg».proof.Proof.UnitRowMean
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Text

open Cert.KernelIdeal Cert.KernelIdeal.Gen Cert.UnitRowMean

/-- The floor ε under a row's length, and the count 77 the sum is divided by, as the extended reals the printed
    words denote (the same words on the reference's side: neither is ever evaluated). -/
abbrev eps : EReal := Ideal.ofBits .f32 0x2B8CBCCC#32
abbrev cnt : EReal := Ideal.ofBits .f32 0x429A0000#32

/-! ## The body's operations that are not pointwise, each read at an index -/

/-- The lane sum of x² over the last axis, at (p, s): the squared length of row (p, s). -/
theorem rowSq_apply (x : FVec Ideal S16x77x512 .f32) (p : Fin 16) (s : Fin 77) :
    multiReduction .add [2] S16x77 (mulf x x) 0x00000000#32 reduces_S16x77x512_S16x77 (.inl rfl) rfl (ix2 p s)
      = sumSq (A := 16) (S := 77) (D := 512) x p s := by
  refine (Ideal.multiReduction_add_single (mulf x x) 0x00000000#32 reduces_S16x77x512_S16x77 (.inl rfl) rfl (ix2 p s)).trans ?_
  unfold sumSq
  refine Finset.sum_congr rfl fun e _ => ?_
  have hi : reduces_S16x77x512_S16x77.lift (ix2 p s) e = ix3 p s e :=
    funext fun a => Fin.ext (by match a with | ⟨0, _⟩ => rfl | ⟨1, _⟩ => rfl | ⟨2, _⟩ => rfl)
  rw [hi]; rfl

/-- [16,77] recast to [16,77,1]: entry (p, s, ·) is entry (p, s). -/
theorem keepdims_apply {α : Type} (v : S16x77.Idx → α) (p : Fin 16) (s : Fin 77) (z : Fin 1) :
    shapeCast S16x77x1 v shapeCasts_S16x77_S16x77x1 (ix3 p s z) = v (ix2 p s) := by
  refine shapeCast_apply v _ (ix3 p s z) (ix2 p s) ?_
  rw [Shape.rowMajor_val_two, Shape.rowMajor_val_three]
  have hz : z.val = 0 := by omega
  show p.val * 77 + s.val = (p.val * 77 + s.val) * 1 + z.val
  omega

/-- [16,77,1] spread along the last axis to [16,77,512]: entry (p, s, q) is entry (p, s, 0). -/
theorem spread_apply {α : Type} (v : S16x77x1.Idx → α) (p : Fin 16) (s : Fin 77) (q : Fin 512) :
    broadcastTo S16x77x512 v broadcasts_S16x77x1_S16x77x512 (ix3 p s q) = v (ix3 p s (0 : Fin 1)) := by
  refine broadcastTo_apply v _ (ix3 p s q) (ix3 p s (0 : Fin 1)) fun a => ?_
  match a with
  | ⟨0, _⟩ => show p.val = if (16 : Nat) = 1 then 0 else p.val; rw [if_neg (by decide)]
  | ⟨1, _⟩ => show s.val = if (77 : Nat) = 1 then 0 else s.val; rw [if_neg (by decide)]
  | ⟨2, _⟩ => show (0 : Nat) = if (1 : Nat) = 1 then 0 else q.val; rw [if_pos rfl]

/-- The lane sum over the middle axis, at (p, q): the sum over the 77 positions. -/
theorem colSum_apply (y : FVec Ideal S16x77x512 .f32) (p : Fin 16) (q : Fin 512) :
    multiReduction .add [1] S16x512 y 0x00000000#32 reduces_S16x77x512_S16x512 (.inl rfl) rfl (ix2 p q)
      = ∑ s : Fin 77, y (ix3 p s q) := by
  refine (Ideal.multiReduction_add_single y 0x00000000#32 reduces_S16x77x512_S16x512 (.inl rfl) rfl (ix2 p q)).trans ?_
  refine Finset.sum_congr rfl fun s _ => ?_
  exact congrArg y (funext fun a => Fin.ext (by match a with | ⟨0, _⟩ => rfl | ⟨1, _⟩ => rfl | ⟨2, _⟩ => rfl))

/-- The divisor the body spreads over a block: per row, the larger of the row's length and ε. -/
def floorLen (x : FVec Ideal S16x77x512 .f32) : FVec Ideal S16x77x512 .f32 :=
  broadcastTo S16x77x512 (maximumf (sqrt (shapeCast S16x77x1
      (multiReduction .add [2] S16x77 (mulf x x) 0x00000000#32 reduces_S16x77x512_S16x77 (.inl rfl) rfl) shapeCasts_S16x77_S16x77x1))
    (broadcast S16x77x1 (Scalar.ofBits (F := Ideal) .f32 0x2B8CBCCC#32))) broadcasts_S16x77x1_S16x77x512

theorem floorLen_apply (x : FVec Ideal S16x77x512 .f32) (p : Fin 16) (s : Fin 77) (q : Fin 512) :
    floorLen x (ix3 p s q) = max (Ideal.sqrt (sumSq (A := 16) (S := 77) (D := 512) x p s)) eps := by
  unfold floorLen
  rw [spread_apply]
  show max (Ideal.sqrt (shapeCast S16x77x1 _ shapeCasts_S16x77_S16x77x1 (ix3 p s (0 : Fin 1)))) eps = _
  rw [keepdims_apply, rowSq_apply]

/-! ## The body's stored value on one block -/

/-- At (p, q) the stored value is the mean over s of x(p,s,q) / max(‖x(p,s,·)‖, ε). -/
theorem pay_apply (x : FVec Ideal S16x77x512 .f32) (p : Fin 16) (q : Fin 512) :
    k1_pay1 (F := Ideal) x (ix2 p q) = meanUnitRows (A := 16) (S := 77) (D := 512) eps cnt x (ix2 p q) := by
  rw [meanUnitRows_ix2]
  have e1 : k1_pay1 (F := Ideal) x (ix2 p q)
      = Ideal.div (multiReduction .add [1] S16x512 (divf x (floorLen x)) 0x00000000#32 reduces_S16x77x512_S16x512 (.inl rfl) rfl (ix2 p q)) cnt := rfl
  rw [e1, colSum_apply]
  refine congrArg (fun t => Ideal.div t cnt) (Finset.sum_congr rfl fun s _ => ?_)
  show Ideal.div (x (ix3 p s q)) (floorLen x (ix3 p s q)) = _
  rw [floorLen_apply]; rfl

theorem pay_eq (x : FVec Ideal S16x77x512 .f32) :
    k1_pay1 (F := Ideal) x = meanUnitRows (A := 16) (S := 77) (D := 512) eps cnt x := by
  funext j
  obtain ⟨p, q, rfl⟩ : ∃ (p : Fin 16) (q : Fin 512), j = ix2 p q := ⟨j 0, j 1, eq_ix2 j⟩
  exact pay_apply x p q

theorem hz3 : (![0, 0, 0] : Fin 3 → Nat) = fun _ => 0 := funext fun a => by fin_cases a <;> rfl
theorem hz2 : (![0, 0] : Fin 2 → Nat) = fun _ => 0 := funext fun a => by fin_cases a <;> rfl

/-- The output window's staging buffer after the body: the one whole-buffer store of that value. -/
theorem out_eq (x : FVec Ideal S16x77x512 .f32) :
    out1_1 (F := Ideal) x = meanUnitRows (A := 16) (S := 77) (D := 512) eps cnt x := by
  unfold out1_1
  rw [View.canon_unit_zero hz2]
  simp only [View.ld_unit_zero (S := S16x77x512) hz3]
  exact pay_eq x

/-! ## From blocks to the array -/

section Array

variable (V : (c : Dev nD) → (b : Ref sig .tc) → Buf (Elt Ideal) ((c : Thread nD τ).loc b))

/-- The printed index maps, decided over the sixteen points: point t takes block (t, 0, 0) in and puts block (t, 0) out. -/
theorem idx_facts : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 :=
  (by decide +kernel : ∀ t : Fin grid1.N, _)

/-- Every block row of the result is some point's. -/
theorem idx_onto : ∀ q0 : Fin 16, ∃ t : Fin cfg1.N, win1_1.index t = ![q0.val, 0] :=
  (by decide +kernel : ∀ q0 : Fin 16, ∃ t : Fin grid1.N, win1_1.index t = ![q0.val, 0])

/-- The input window's block at point t is rows 16t … 16t+15 of the array, all positions, all columns. -/
theorem iblk_apply (c : Dev nD) (t : Fin cfg1.N) (y : S16x77x512.Idx) (k : S256x77x512.Idx)
    (h0 : (k 0).val = 16 * t.val + (y 0).val) (h1 : (k 1).val = (y 1).val) (h2 : (k 2).val = (y 2).val) :
    (iblk1 V c 0 t : Vec Ideal S16x77x512 .f32) y = (V c main_arg1 : S256x77x512.Idx → EReal) k := by
  obtain ⟨e0, e1, e2, -, -⟩ := idx_facts t
  unfold iblk1
  rw [View.read_apply]
  show V c main_arg1 _ = V c main_arg1 _
  congr 1
  funext a
  apply Fin.ext
  match a with
  | ⟨0, _⟩ => show win1_0.index t (0 : Fin 3) * 16 + 1 * (y 0).val = (k 0).val; rw [e0, h0]; omega
  | ⟨1, _⟩ => show win1_0.index t (1 : Fin 3) * 77 + 1 * (y 1).val = (k 1).val; rw [e1, h1]; omega
  | ⟨2, _⟩ => show win1_0.index t (2 : Fin 3) * 512 + 1 * (y 2).val = (k 2).val; rw [e2, h2]; omega

/-- A band of sixteen rows of the mean is the mean of that band of rows: row 16t + p of the whole is row p of the band. -/
theorem band_eq (X : S256x77x512.Idx → EReal) (xb : S16x77x512.Idx → EReal) (t : Nat)
    (hb : ∀ (y : S16x77x512.Idx) (k : S256x77x512.Idx), (k 0).val = 16 * t + (y 0).val → (k 1).val = (y 1).val →
      (k 2).val = (y 2).val → xb y = X k)
    (j : S16x512.Idx) (i : S256x512.Idx) (h0 : (i 0).val = 16 * t + (j 0).val) (h1 : (i 1).val = (j 1).val) :
    meanUnitRows (A := 16) (S := 77) (D := 512) eps cnt xb j = meanUnitRows (A := 256) (S := 77) (D := 512) eps cnt X i := by
  obtain ⟨p, q, rfl⟩ : ∃ (p : Fin 16) (q : Fin 512), j = ix2 p q := ⟨j 0, j 1, eq_ix2 j⟩
  obtain ⟨P, Q, rfl⟩ : ∃ (P : Fin 256) (Q : Fin 512), i = ix2 P Q := ⟨i 0, i 1, eq_ix2 i⟩
  have hQ : Q = q := Fin.ext h1
  subst hQ
  exact meanUnitRows_of_slab eps cnt xb X p P (fun s e => hb (ix3 p s e) (ix3 P s e) h0 rfl rfl) Q

/-- WHAT POINT t WRITES BACK is block t of the mean of the whole array as the region finds it. -/
theorem flushed_eq (c : Dev nD) (t : Fin cfg1.N) :
    (dat1 V c).flushed 1 t = ((cfg1.win 1).blk t).view.read (Elt Ideal)
      (meanUnitRows (A := 256) (S := 77) (D := 512) eps cnt (V c main_arg1 : S256x77x512.Idx → EReal)) := by
  show (cfg1.win 1).cut (grid1.coords t) ((dat1 V c).after 1 t) = _
  rw [after1_1, out_eq]
  obtain ⟨-, -, -, e3, e4⟩ := idx_facts t
  funext j
  show meanUnitRows (A := 16) (S := 77) (D := 512) eps cnt (iblk1 V c 0 t : Vec Ideal S16x77x512 .f32) j
    = meanUnitRows (A := 256) (S := 77) (D := 512) eps cnt (V c main_arg1 : S256x77x512.Idx → EReal) (((cfg1.win 1).blk t).view.emb j)
  refine band_eq _ _ t.val (fun y k a b d => iblk_apply V c t y k a b d) j _ ?_ ?_
  · show win1_1.index t (0 : Fin 2) * 16 + 1 * (j 0).val = 16 * t.val + (j 0).val; rw [e3]; omega
  · show win1_1.index t (1 : Fin 2) * 512 + 1 * (j 1).val = (j 1).val; rw [e4]; omega

/-- An index of the result is in point t's block iff each coordinate is in the block's range on its axis. -/
theorem mem_blk (t : Fin cfg1.N) (i : S256x512.Idx) :
    i ∈ ((cfg1.win 1).blk t).view.set ↔ ∀ a : Fin 2, win1_1.index t a * S16x512.size a ≤ (i a).val
      ∧ (i a).val < win1_1.index t a * S16x512.size a + S16x512.size a := by
  show i ∈ ((View.whole main_v1).slice (win1_1.rect t)).set ↔ _
  rw [View.set_slice_whole, Rect.mem_set_unit]
  exact Iff.rfl

/-- The sixteen blocks tile the result: row r is in the block of point r / 16. -/
theorem cover (i : S256x512.Idx) : ∃ t : Fin cfg1.N, (cfg1.win 1).flush t = true ∧ i ∈ ((cfg1.win 1).blk t).view.set := by
  have hi0 : (i 0).val < 256 := (i 0).isLt
  have hi1 : (i 1).val < 512 := (i 1).isLt
  obtain ⟨t, ht⟩ := idx_onto ⟨(i 0).val / 16, by omega⟩
  have q0 : win1_1.index t (0 : Fin 2) = (i 0).val / 16 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 16 ≤ (i 0).val ∧ (i 0).val < win1_1.index t (0 : Fin 2) * 16 + 16; omega
  | ⟨1, _⟩ => show win1_1.index t (1 : Fin 2) * 512 ≤ (i 1).val ∧ (i 1).val < win1_1.index t (1 : Fin 2) * 512 + 512; omega

/-- THE RESULT ARRAY after the region: the mean of the unit rows of the array as the region found it. -/
theorem final (c : Dev nD) : (dat1 V c).arrAt 1 cfg1.N
    = meanUnitRows (A := 256) (S := 77) (D := 512) eps cnt (V c main_arg1 : S256x77x512.Idx → EReal) :=
  (dat1 V c).arrAt_eq_of_cover 1 _ (fun t _ => flushed_eq V c t) cover

end Array

end Cert.KernelIdeal.Text

end
-- ==== Proof.KernelValue.lean ====
/-
  The kernel program's run, read as values at the ideal instance. At the second region's exit the first region's
  result array holds the mean of the unit rows of `motion_seq` and the second's that of `text_seq`, each argument
  array as launched (no region and no host operation writes one); the host operations after the regions then leave
  `loss` and `logits` of those two arrays in the two result buffers.
-/
import proofs.«141613_j14791867367486_1_alg».proof.Proof.KernelRun
import proofs.«141613_j14791867367486_1_alg».proof.Proof.KernelTail
import proofs.«141613_j14791867367486_1_alg».proof.Proof.MotionPool
import proofs.«141613_j14791867367486_1_alg».proof.Proof.TextPool

set_option maxRecDepth 16384

noncomputable section

open Idealize.ShloMosaic Idealize.ShloMosaic.TcCoe Idealize.SL.Sem
open Idealize.ShloMosaic.ValueIdx

namespace Cert.KernelIdeal.Whole

open Cert.KernelIdeal Cert.KernelIdeal.Gen Cert.UnitRowMean

variable (m : (ℓ : Loc nD τ sig) → Buf (Elt Ideal) ℓ) (ρ : Dev nD → PrngReg)

/-- The pooled motion embedding: the mean over the 196 positions of `motion_seq`'s unit rows. -/
abbrev pooledMotion (c : Dev nD) : S256x512.Idx → EReal :=
  meanUnitRows (A := 256) (S := 196) (D := 512) Motion.eps Motion.cnt (m ((c : Thread nD τ).loc main_arg0) : S256x196x512.Idx → EReal)

/-- The pooled text embedding: the mean over the 77 positions of `text_seq`'s unit rows. -/
abbrev pooledText (c : Dev nD) : S256x512.Idx → EReal :=
  meanUnitRows (A := 256) (S := 77) (D := 512) Text.eps Text.cnt (m ((c : Thread nD τ).loc main_arg1) : S256x77x512.Idx → EReal)

/-- At the second region's exit the first region's result array still holds what that region left: the pooled motion
    embedding of the launch contents. -/
theorem W2_motion (c : Dev nD) : W2 m ρ c (Proc.devRef .tc main_v0) = pooledMotion m c :=
  (W2_of_ne m ρ c main_v0 (by decide)).trans ((W1_arr m ρ c 1).trans (Motion.final (V0 m ρ) c))

/-- The second region finds `text_seq` as launched (the first region does not touch it) and leaves its pooled embedding. -/
theorem W2_text (c : Dev nD) : W2 m ρ c (Proc.devRef .tc main_v1) = pooledText m c := by
  refine (W2_arr m ρ c 1).trans ((Text.final (V1 m ρ) c).trans ?_)
  have h : (V1 m ρ c main_arg1 : S256x77x512.Idx → EReal) = m ((c : Thread nD τ).loc main_arg1) :=
    W1_of_ne m ρ c main_arg1 (by decide)
  rw [h]

/-- THE RUN, READ: every weakly fair execution of the kernel program ends with the loss buffer at `loss` and the
    logits buffer at `logits` of the two pooled embeddings, the arguments as launched. -/
theorem run : θ_run defs (onTc (τ := τ) (main (F := Ideal))) ⟨m, fun _ => 0, ρ⟩ (fun r => ∀ c : Dev nD,
      r.2.mem ((c.tc : Thread nD τ).loc main_v44) = Tail.loss (F := Ideal) (pooledMotion m c) (pooledText m c)
      ∧ r.2.mem ((c.tc : Thread nD τ).loc main_v4) = Tail.logits (F := Ideal) (pooledMotion m c) (pooledText m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c).1.trans ((Tail.W7_loss m ρ c).trans (by rw [W2_motion, W2_text])),
       (h c).2.1.trans ((Tail.W7_logits m ρ c).trans (by rw [W2_motion, W2_text])),
       (h c).2.2⟩)
    (Cert.KernelIdeal.GenP.run_results (F := Ideal) m ρ)

end Cert.KernelIdeal.Whole

end
-- ==== Proof.lean ====
/-
  Both programs pool each sequence tensor to [256, 512] by taking, per batch row, the mean over the sequence axis
  of the token rows scaled to unit Euclidean length (the length floored at ε ≈ 1e-12), and then apply the same
  similarity-and-loss tail to the two pooled arrays. The kernel pools in two pallas_calls, sixteen batch rows per
  grid point, with lane reductions; the reference pools each whole tensor at once with host reductions. Over the
  extended reals these are one function: a row of the pooled array depends on its own slab of the input only, a sum
  over an axis is the same sum however it is tiled, the quotients and the root are the same operations on both sides,
  and the literals ε, 196, 77 are the same words on both sides. No law beyond that is used, so the precondition is
  never opened.

    frame (kernel, both instances)   the generated several-region frame;
    frame (reference)                its run read back (a patched copy of the generated run), results dropped;
    preserves                        the ideal pass rewrote nothing;
    algebraic                        the kernel run read as values (Proof/KernelValue.lean) beside the reference run,
                                     whose two results are `loss` / `logits` of its pooled stages, each of which is
                                     `meanUnitRows` of its argument (Proof/RefValue.lean).
-/
import proofs.«141613_j14791867367486_1_alg».proof.Defs
import proofs.«141613_j14791867367486_1_alg».proof.Proof.Gen.Kernel
import proofs.«141613_j14791867367486_1_alg».proof.Proof.Gen.Kernel.Skeleton
import proofs.«141613_j14791867367486_1_alg».proof.Proof.Gen.Kernel.Launch
import proofs.«141613_j14791867367486_1_alg».proof.Proof.Gen.Kernel.Points
import proofs.«141613_j14791867367486_1_alg».proof.Proof.Gen.Kernel.Frame
import proofs.«141613_j14791867367486_1_alg».proof.Proof.Gen.KernelIdeal
import proofs.«141613_j14791867367486_1_alg».proof.Proof.Gen.KernelIdeal.Skeleton
import proofs.«141613_j14791867367486_1_alg».proof.Proof.Gen.KernelIdeal.Launch
import proofs.«141613_j14791867367486_1_alg».proof.Proof.Gen.KernelIdeal.Points
import proofs.«141613_j14791867367486_1_alg».proof.Proof.Gen.KernelIdeal.Frame
import proofs.«141613_j14791867367486_1_alg».proof.Proof.Gen.ReferenceIdeal
import proofs.«141613_j14791867367486_1_alg».proof.Proof.Gen.Pre_finite_inputs
import proofs.«141613_j14791867367486_1_alg».proof.Proof.RefRun
import proofs.«141613_j14791867367486_1_alg».proof.Proof.RefRead
import proofs.«141613_j14791867367486_1_alg».proof.Proof.RefValue
import proofs.«141613_j14791867367486_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories agreeing on the two sequence tensors both programs end with the loss at `loss` and the logits at
    `logits` of the two pooled embeddings of the kernel's arguments. -/
theorem algebraic : Cert.algebraic_KernelIdeal_ReferenceIdeal := by
  intro m ρ m' ρ' _ hagree
  refine ⟨fun c => Cert.KernelIdeal.Tail.loss (F := Ideal) (Cert.KernelIdeal.Whole.pooledMotion m c) (Cert.KernelIdeal.Whole.pooledText m c),
    fun c => Cert.KernelIdeal.Tail.logits (F := Ideal) (Cert.KernelIdeal.Whole.pooledMotion m c) (Cert.KernelIdeal.Whole.pooledText m c),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v58_eq, Cert.ReferenceIdeal.RefValue.loss_eq, Cert.ReferenceIdeal.RefValue.motion_eq,
      Cert.ReferenceIdeal.RefValue.text_eq, (hagree c).1, (hagree c).2]
  · rw [Cert.ReferenceIdeal.ReadP.val_main_v18_eq, Cert.ReferenceIdeal.RefValue.logits_eq, Cert.ReferenceIdeal.RefValue.motion_eq,
      Cert.ReferenceIdeal.RefValue.text_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
